-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x625000 : Shape := ⟨2, ![2, 625000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x625000 32) (main_arg2 : FVec F S128x128 .f32) (main_arg3 : FVec F S128 .f32) (main_arg4 : FVec F S128x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S100000x128 : Shape := ⟨2, ![100000, 128]⟩
abbrev S2x625000 : Shape := ⟨2, ![2, 625000]⟩
abbrev S128x128 : Shape := ⟨2, ![128, 128]⟩
abbrev S128 : Shape := ⟨1, ![128]⟩
abbrev S1x625000 : Shape := ⟨2, ![1, 625000]⟩
abbrev S625000 : Shape := ⟨1, ![625000]⟩
abbrev S_ : Shape := ⟨0, ![]⟩
abbrev S625000x1 : Shape := ⟨2, ![625000, 1]⟩
abbrev S625000x128 : Shape := ⟨2, ![625000, 128]⟩
abbrev S1x128 : Shape := ⟨2, ![1, 128]⟩
abbrev S5000x128 : Shape := ⟨2, ![5000, 128]⟩

abbrev nBuf : Space → Nat
  | .hbm => 30
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x625000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x625000, .i32⟩
  | .hbm, ⟨7, _⟩ => ⟨S625000, .i32⟩
  | .hbm, ⟨8, _⟩ => ⟨S1x625000, .i32⟩
  | .hbm, ⟨9, _⟩ => ⟨S625000, .i32⟩
  | .hbm, ⟨10, _⟩ => ⟨S_, .i32⟩
  | .hbm, ⟨11, _⟩ => ⟨S625000, .i32⟩
  | .hbm, ⟨12, _⟩ => ⟨S625000, .i1⟩
  | .hbm, ⟨13, _⟩ => ⟨S_, .i32⟩
  | .hbm, ⟨14, _⟩ => ⟨S625000, .i32⟩
  | .hbm, ⟨15, _⟩ => ⟨S625000, .i32⟩
  | .hbm, ⟨16, _⟩ => ⟨S625000, .i32⟩
  | .hbm, ⟨17, _⟩ => ⟨S625000x1, .i32⟩
  | .hbm, ⟨18, _⟩ => ⟨S625000x128, .f32⟩
  | .hbm, ⟨19, _⟩ => ⟨S_, .f32⟩
  | .hbm, ⟨20, _⟩ => ⟨S100000x128, .f32⟩
  | .hbm, ⟨21, _⟩ => ⟨S625000x1, .i32⟩
  | .hbm, ⟨22, _⟩ => ⟨S100000x128, .f32⟩
  | .hbm, ⟨23, _⟩ => ⟨S128x128, .f32⟩
  | .hbm, ⟨24, _⟩ => ⟨S128x128, .bf16⟩
  | .hbm, ⟨25, _⟩ => ⟨S128x128, .f32⟩
  | .hbm, ⟨26, _⟩ => ⟨S128x128, .bf16⟩
  | .hbm, ⟨27, _⟩ => ⟨S1x128, .f32⟩
  | .hbm, ⟨28, _⟩ => ⟨S1x128, .f32⟩
  | .hbm, ⟨29, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .bf16⟩
  | .local _ .vmem, ⟨5, _⟩ => ⟨S1x128, .f32⟩
  | .local _ .vmem, ⟨6, _⟩ => ⟨S128x128, .bf16⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S625000 : S_.BroadcastsInDim S625000 (![] : Fin 0 → Fin S625000.rank)
  bcast_S625000_S625000x1_0 : S625000.BroadcastsInDim S625000x1 (![0] : Fin 1 → Fin S625000x1.rank)
  bcast_S_S100000x128 : S_.BroadcastsInDim S100000x128 (![] : Fin 0 → Fin S100000x128.rank)
  transposes_S128x128_S128x128_1_0 : S128x128.Transposes [1, 0] S128x128
  bitsLt_bf16_f32 : FTy.bits .bf16 < FTy.bits .f32
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S100000x128_S625000x1_S625000x128_1_0_n_n_0_1_1128_wf : GatherDims.WF S100000x128 S625000x1 S625000x128 [1] [0] [] [0] [] 1 ![1, 128]
  scatter_S100000x128_S625000x1_S625000x128_1_0_0_1_wf : ScatterDims.WF S100000x128 S625000x1 S625000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)

variable [Facts₀]

def gather_S100000x128_S625000x1_S625000x128_1_0_n_n_0_1_1128 : GatherDims S100000x128 S625000x1 S625000x128 where
  offsetDims := [1]
  collapsedSliceDims := [0]
  operandBatchingDims := []
  startIndicesBatchingDims := []
  startIndexMap := [0]
  indexVectorDim := 1
  sliceSizes := ![1, 128]
  wf := gather_S100000x128_S625000x1_S625000x128_1_0_n_n_0_1_1128_wf
def scatter_S100000x128_S625000x1_S625000x128_1_0_0_1 : ScatterDims S100000x128 S625000x1 S625000x128 where
  updateWindowDims := [1]
  insertedWindowDims := [0]
  scatterDimsToOperandDims := [0]
  indexVectorDim := 1
  wf := scatter_S100000x128_S625000x1_S625000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x625000 : Shape := ⟨2, ![2, 625000]⟩
abbrev S128x128 : Shape := ⟨2, ![128, 128]⟩
abbrev S128 : Shape := ⟨1, ![128]⟩
abbrev S1x625000 : Shape := ⟨2, ![1, 625000]⟩
abbrev S625000 : Shape := ⟨1, ![625000]⟩
abbrev S_ : Shape := ⟨0, ![]⟩
abbrev S625000x1 : Shape := ⟨2, ![625000, 1]⟩
abbrev S625000x128 : Shape := ⟨2, ![625000, 128]⟩
abbrev S1x128 : Shape := ⟨2, ![1, 128]⟩

abbrev nBuf : Space → Nat
  | .hbm => 43
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x625000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x625000, .i32⟩
  | .hbm, ⟨7, _⟩ => ⟨S625000, .i32⟩
  | .hbm, ⟨8, _⟩ => ⟨S1x625000, .i32⟩
  | .hbm, ⟨9, _⟩ => ⟨S625000, .i32⟩
  | .hbm, ⟨10, _⟩ => ⟨S_, .i32⟩
  | .hbm, ⟨11, _⟩ => ⟨S625000, .i32⟩
  | .hbm, ⟨12, _⟩ => ⟨S625000, .i1⟩
  | .hbm, ⟨13, _⟩ => ⟨S_, .i32⟩
  | .hbm, ⟨14, _⟩ => ⟨S625000, .i32⟩
  | .hbm, ⟨15, _⟩ => ⟨S625000, .i32⟩
  | .hbm, ⟨16, _⟩ => ⟨S625000, .i32⟩
  | .hbm, ⟨17, _⟩ => ⟨S625000x1, .i32⟩
  | .hbm, ⟨18, _⟩ => ⟨S625000x128, .f32⟩
  | .hbm, ⟨19, _⟩ => ⟨S_, .f32⟩
  | .hbm, ⟨20, _⟩ => ⟨S100000x128, .f32⟩
  | .hbm, ⟨21, _⟩ => ⟨S625000x1, .i32⟩
  | .hbm, ⟨22, _⟩ => ⟨S100000x128, .f32⟩
  | .hbm, ⟨23, _⟩ => ⟨S_, .f32⟩
  | .hbm, ⟨24, _⟩ => ⟨S100000x128, .f32⟩
  | .hbm, ⟨25, _⟩ => ⟨S100000x128, .f32⟩
  | .hbm, ⟨26, _⟩ => ⟨S100000x128, .f32⟩
  | .hbm, ⟨27, _⟩ => ⟨S128x128, .f32⟩
  | .hbm, ⟨28, _⟩ => ⟨S100000x128, .f32⟩
  | .hbm, ⟨29, _⟩ => ⟨S1x128, .f32⟩
  | .hbm, ⟨30, _⟩ => ⟨S100000x128, .f32⟩
  | .hbm, ⟨31, _⟩ => ⟨S100000x128, .f32⟩
  | .hbm, ⟨32, _⟩ => ⟨S_, .f32⟩
  | .hbm, ⟨33, _⟩ => ⟨S100000x128, .f32⟩
  | .hbm, ⟨34, _⟩ => ⟨S100000x128, .f32⟩
  | .hbm, ⟨35, _⟩ => ⟨S128x128, .f32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S100000x128, .f32⟩
  | .hbm, ⟨40, _⟩ => ⟨S_, .f32⟩
  | .hbm, ⟨41, _⟩ => ⟨S100000x128, .f32⟩
  | .hbm, ⟨42, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_call0_cst : Ref sig .tc := ⟨.hbm, 32, rfl⟩
abbrev main_call0_v0 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_call1_cst : Ref sig .tc := ⟨.hbm, 40, rfl⟩
abbrev main_call1_v0 : Ref sig .tc := ⟨.hbm, 41, rfl⟩
abbrev main_v28 : Ref sig .tc := ⟨.hbm, 42, rfl⟩

abbrev nD : Nat := 1
abbrev τ : Topo := Topo.v7x

variable {F : FTy → Type} [FloatOps F]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S625000 : S_.BroadcastsInDim S625000 (![] : Fin 0 → Fin S625000.rank)
  bcast_S625000_S625000x1_0 : S625000.BroadcastsInDim S625000x1 (![0] : Fin 1 → Fin S625000x1.rank)
  bcast_S_S100000x128 : S_.BroadcastsInDim S100000x128 (![] : Fin 0 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S625000x1_S625000x128_1_0_n_n_0_1_1128_wf : GatherDims.WF S100000x128 S625000x1 S625000x128 [1] [0] [] [0] [] 1 ![1, 128]
  scatter_S100000x128_S625000x1_S625000x128_1_0_0_1_wf : ScatterDims.WF S100000x128 S625000x1 S625000x128 [1] [0] [0] 1
  dot_S100000x128_S128x128_S100000x128_1_0_0_1_n_n_wf : DotDims.WF S100000x128 S128x128 S100000x128 [1] [0] [0] [1] [] []

variable [Facts₀]

def gather_S100000x128_S625000x1_S625000x128_1_0_n_n_0_1_1128 : GatherDims S100000x128 S625000x1 S625000x128 where
  offsetDims := [1]
  collapsedSliceDims := [0]
  operandBatchingDims := []
  startIndicesBatchingDims := []
  startIndexMap := [0]
  indexVectorDim := 1
  sliceSizes := ![1, 128]
  wf := gather_S100000x128_S625000x1_S625000x128_1_0_n_n_0_1_1128_wf
def scatter_S100000x128_S625000x1_S625000x128_1_0_0_1 : ScatterDims S100000x128 S625000x1 S625000x128 where
  updateWindowDims := [1]
  insertedWindowDims := [0]
  scatterDimsToOperandDims := [0]
  indexVectorDim := 1
  wf := scatter_S100000x128_S625000x1_S625000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Mlp.lean ====
/-
  The arithmetic of the layer on ONE row of features, over the extended reals.

  A node's row `h` (128 numbers) goes through two dense layers, each followed by a clamp at zero:
  `dense h w b q = max (Σ_k h k · w (k, q) + b (0, q)) 0`, and `mlp h = dense (dense h w₁ b₁) w₂ b₂`.
  The weight matrices are read as stored for the product (row = input feature, column = output feature) and the
  biases as a single row. The layer's output array is `mlp` of the row `x r + agg r`, where `agg` is the sum of the
  neighbours' rows: row `r` of the output depends on row `r` of `x` and of `agg` only, which is why a tiling of the
  rows computes the same array as one pass over all of them.
-/
import Idealize.ShloMosaic.Lib.ValueIdx
import Idealize.ShloMosaic.PureOps.Ideal.Laws

noncomputable section

open scoped BigOperators

namespace Cert.Gin

open Idealize.ShloMosaic Idealize.ShloMosaic.ValueIdx

/-- A 128 × 128 weight matrix as a function on its index set. -/
abbrev Wt : Type := (⟨2, ![128, 128]⟩ : Shape).Idx → EReal
/-- A bias, kept as one row of 128 numbers. -/
abbrev Bias : Type := (⟨2, ![1, 128]⟩ : Shape).Idx → EReal
/-- The feature array: 100000 nodes, 128 features each. -/
abbrev Feat : Type := (⟨2, ![100000, 128]⟩ : Shape).Idx → EReal

/-- One dense layer and the clamp at zero, at output feature `q` of one row `h`. -/
def dense (h : Fin 128 → EReal) (w : Wt) (b : Bias) (q : Fin 128) : EReal :=
  max ((∑ k : Fin 128, h k * w (ix2 k q)) + b (ix2 (0 : Fin 1) q)) 0

/-- The two-layer perceptron of one row. -/
def mlp (h : Fin 128 → EReal) (w1 : Wt) (b1 : Bias) (w2 : Wt) (b2 : Bias) (q : Fin 128) : EReal :=
  dense (fun k => dense h w1 b1 k) w2 b2 q

/-- The layer at node `r`, feature `q`: the perceptron of the node's own row plus its aggregated neighbours' row. -/
def nodeOut (x agg : Feat) (w1 : Wt) (b1 : Bias) (w2 : Wt) (b2 : Bias) (r : Fin 100000) (q : Fin 128) : EReal :=
  mlp (fun j => x (ix2 r j) + agg (ix2 r j)) w1 b1 w2 b2 q

/-- The layer's whole output array. -/
def layerOut (x agg : Feat) (w1 : Wt) (b1 : Bias) (w2 : Wt) (b2 : Bias) : Feat :=
  fun i => nodeOut x agg w1 b1 w2 b2 (i 0) (i 1)

theorem layerOut_ix2 (x agg : Feat) (w1 : Wt) (b1 : Bias) (w2 : Wt) (b2 : Bias) (r : Fin 100000) (q : Fin 128) :
    layerOut x agg w1 b1 w2 b2 (ix2 r q) = nodeOut x agg w1 b1 w2 b2 r q := rfl

end Cert.Gin

end
-- ==== Proof.KernelRow.lean ====
/-
  The kernel body's arithmetic, read at one element of its output block.

  The body adds the node block and the aggregate block, multiplies by the first weight matrix (a product into a zero
  accumulator: a plain sum over the 128 input features), adds the bias row broadcast down the block, clamps at zero,
  and does the same again with the second matrix and bias. The narrowing of the product's operands changes nothing
  over the extended reals. So element (p, q) of the block the body stores is the two-layer perceptron `Gin.mlp` of
  row p of the sum of the two loaded blocks, at feature q.
-/
import proofs.«152636_j7000796693167_1_alg».proof.Proof.Gen.KernelIdeal.Skeleton
import proofs.«152636_j7000796693167_1_alg».proof.Proof.Mlp
import Idealize.ShloMosaic.Lib.ValueIdx
import Idealize.ShloMosaic.Lib.Pipeline.Value
import Idealize.ShloMosaic.PureOps.Ideal.Laws

noncomputable section

open scoped BigOperators

namespace Cert.KernelIdeal.RowValue

open Cert.KernelIdeal Cert.KernelIdeal.Gen Idealize.ShloMosaic Idealize.ShloMosaic.ValueIdx Cert.Gin

/-! ## The block product at an element -/

theorem lhs_axis0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_axis1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_axis0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_axis1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block's product into a zero accumulator, at row `p` and column `q`: the sum over the contracted feature `k` of
    the left operand at (p, k) times the right at (k, q). -/
theorem matmul_zero_ix2 {φ₁ φ₂ : FTy} (a : FVec Ideal S5000x128 φ₁) (b : FVec Ideal S128x128 φ₂) (p : Fin 5000) (q : Fin 128) :
    matmul dot_S5000x128_S128x128_S5000x128_1_0_0_1_n_n none a b (constant S5000x128 .f32 0x00000000#32) (ix2 p q)
      = ∑ k : Fin 128, a (ix2 p k) * b (ix2 k q) := by
  refine (Ideal.matmul_constant_zero_apply dot_S5000x128_S128x128_S5000x128_1_0_0_1_n_n none a b (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-! ## The bias row broadcast down the block -/

/-- The bias row broadcast to the block reads the row's entry of the same column. -/
theorem bias_bcast_ix2 (b : FVec Ideal S1x128 .f32) (p : Fin 5000) (q : Fin 128) :
    broadcastTo S5000x128 b broadcasts_S1x128_S5000x128 (ix2 p q) = b (ix2 (0 : Fin 1) q) :=
  broadcastTo_apply b broadcasts_S1x128_S5000x128 (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])

/-! ## One dense layer of the body, and the stored block -/

/-- A product into zero, plus the broadcast bias row, clamped at the zero splat: `Gin.dense` of the left operand's row. -/
theorem dense_ix2 {φ₁ φ₂ : FTy} (a : FVec Ideal S5000x128 φ₁) (w : FVec Ideal S128x128 φ₂) (b : FVec Ideal S1x128 .f32) (p : Fin 5000) (q : Fin 128) :
    maximumf (addf (matmul dot_S5000x128_S128x128_S5000x128_1_0_0_1_n_n none a w (constant S5000x128 .f32 0x00000000#32))
        (broadcastTo S5000x128 b broadcasts_S1x128_S5000x128))
      (broadcast S5000x128 (Scalar.ofBits (F := Ideal) .f32 0x00000000#32)) (ix2 p q)
      = dense (fun k => a (ix2 p k)) w b q := by
  rw [maximumf_apply, addf_apply, matmul_zero_ix2, bias_bcast_ix2, broadcast_apply]
  show max _ (Ideal.ofBits .f32 0x00000000#32) = _
  rw [Ideal.ofBits_zero_f32]
  rfl

/-- THE STORED BLOCK at (p, q): the perceptron of row p of the sum of the two loaded feature blocks. -/
theorem pay_ix2 (x0 x1 : Vec Ideal S5000x128 .f32) (x2 : Vec Ideal S128x128 .bf16) (x3 : Vec Ideal S1x128 .f32)
    (x4 : Vec Ideal S128x128 .bf16) (x5 : Vec Ideal S1x128 .f32) (p : Fin 5000) (q : Fin 128) :
    k0_pay1 x0 x1 x2 x3 x4 x5 (ix2 p q) = mlp (fun j => x0 (ix2 p j) + x1 (ix2 p j)) x2 x3 x4 x5 q := by
  unfold k0_pay1
  simp only [shapeCast_self]
  rw [dense_ix2]
  unfold mlp
  congr 1
  funext k
  rw [truncf_apply, dense_ix2]
  rfl

end Cert.KernelIdeal.RowValue

end
-- ==== Proof.KernelArray.lean ====
/-
  The kernel's output ARRAY after the run.

  The call walks the 100000 nodes in 20 tiles of 5000 rows. At tile `t` the two feature windows hold rows
  `5000·t … 5000·t + 4999` of the node features and of the aggregate; the two weight windows and the two bias windows
  hold their whole arrays at every tile. The body stores, at (p, q) of the output tile, the perceptron of row p of the
  sum of the two feature tiles (KernelRow), i.e. the layer's value at node `5000·t + p`, feature q. The tiles are
  written back to rows `5000·t …` of the result and together cover it (node r lies in tile `r / 5000`), so the result
  array ends as the layer's output array `Gin.layerOut` of the arrays the call was given.
-/
import proofs.«152636_j7000796693167_1_alg».proof.Proof.Gen.KernelIdeal.Value
import proofs.«152636_j7000796693167_1_alg».proof.Proof.KernelRow
import Idealize.ShloMosaic.Lib.Pipeline.Value

set_option maxRecDepth 16384

noncomputable section

open scoped BigOperators

namespace Cert.KernelIdeal.ArrValue

open Cert.KernelIdeal Cert.KernelIdeal.Gen Cert.KernelIdeal.RowValue Idealize.ShloMosaic Idealize.ShloMosaic.TcCoe Idealize.SL.Sem
open Idealize.ShloMosaic.ValueIdx Cert.Gin
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The index maps over the 20 tiles: the two feature windows and the output move with the tile along the rows; the
    weights and biases stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! ## The arrays the call is given, and the result it should leave -/

/-- The node features as the call finds them. -/
abbrev xArr (c : Dev nD) : Feat := V m c main_arg0
/-- The aggregated neighbour features as the call finds them. -/
abbrev aggArr (c : Dev nD) : Feat := V m c main_v13
/-- The first weight matrix, transposed for the product. -/
abbrev w1Arr (c : Dev nD) : Wt := V m c main_v15
/-- The first bias as a row. -/
abbrev b1Arr (c : Dev nD) : Bias := V m c main_v18
/-- The second weight matrix, transposed for the product. -/
abbrev w2Arr (c : Dev nD) : Wt := V m c main_v17
/-- The second bias as a row. -/
abbrev b2Arr (c : Dev nD) : Bias := V m c main_v19

/-- The layer's output array of those six arrays. -/
def result (c : Dev nD) : Feat :=
  layerOut (xArr m c) (aggArr m c) (w1Arr m c) (b1Arr m c) (w2Arr m c) (b2Arr m c)

/-! ## The windows' blocks at a tile -/

/-- Row p of the node-feature tile at `t` is row `5000·t + p` of the node features. -/
theorem x_tile (c : Dev nD) (t : Fin cfg0.N) (p : Fin 5000) (k : Fin 128) (r : Fin 100000) (hr : r.val = t.val * 5000 + p.val) :
    (iblk m c 0 t : Vec Ideal S5000x128 .f32) (ix2 p k) = xArr m c (ix2 r k) := by
  obtain ⟨e0, e1, -⟩ := idx_facts t
  show V m c main_arg0 (((cfg0.win 0).blk t).view.emb (ix2 p k)) = V m c main_arg0 (ix2 r k)
  refine congrArg _ (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

/-- Row p of the aggregate tile at `t` is row `5000·t + p` of the aggregate. -/
theorem agg_tile (c : Dev nD) (t : Fin cfg0.N) (p : Fin 5000) (k : Fin 128) (r : Fin 100000) (hr : r.val = t.val * 5000 + p.val) :
    (iblk m c 1 t : Vec Ideal S5000x128 .f32) (ix2 p k) = aggArr m c (ix2 r k) := by
  obtain ⟨-, -, e2, e3, -⟩ := idx_facts t
  show V m c main_v13 (((cfg0.win 1).blk t).view.emb (ix2 p k)) = V m c main_v13 (ix2 r k)
  refine congrArg _ (funext fun a => Fin.ext ?_)
  match a with
  | ⟨0, _⟩ => show win0_1.index t (0 : Fin 2) * 5000 + 1 * p.val = r.val; omega
  | ⟨1, _⟩ => show win0_1.index t (1 : Fin 2) * 128 + 1 * k.val = k.val; omega

/-- The first weight window holds its whole array at every tile. -/
theorem w1_tile (c : Dev nD) (t : Fin cfg0.N) : (iblk m c 2 t : Vec Ideal S128x128 .bf16) = w1Arr m c := by
  obtain ⟨-, -, -, -, e4, e5, -⟩ := idx_facts t
  funext y
  show V m c main_v15 (((cfg0.win 2).blk t).view.emb y) = V m c main_v15 y
  refine congrArg _ (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- The first bias window holds its whole row at every tile. -/
theorem b1_tile (c : Dev nD) (t : Fin cfg0.N) : (iblk m c 3 t : Vec Ideal S1x128 .f32) = b1Arr m c := by
  obtain ⟨-, -, -, -, -, -, e6, e7, -⟩ := idx_facts t
  funext y
  show V m c main_v18 (((cfg0.win 3).blk t).view.emb y) = V m c main_v18 y
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 128 + 1 * (y 1).val = (y 1).val; omega

/-- The second weight window holds its whole array at every tile. -/
theorem w2_tile (c : Dev nD) (t : Fin cfg0.N) : (iblk m c 4 t : Vec Ideal S128x128 .bf16) = w2Arr m c := by
  obtain ⟨-, -, -, -, -, -, -, -, e8, e9, -⟩ := idx_facts t
  funext y
  show V m c main_v17 (((cfg0.win 4).blk t).view.emb y) = V m c main_v17 y
  refine congrArg _ (funext fun a => Fin.ext ?_)
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- The second bias window holds its whole row at every tile. -/
theorem b2_tile (c : Dev nD) (t : Fin cfg0.N) : (iblk m c 5 t : Vec Ideal S1x128 .f32) = b2Arr m c := by
  obtain ⟨-, -, -, -, -, -, -, -, -, -, e10, e11, -⟩ := idx_facts t
  funext y
  show V m c main_v19 (((cfg0.win 5).blk t).view.emb y) = V m c main_v19 y
  refine congrArg _ (funext fun a => Fin.ext ?_)
  match a with
  | ⟨0, _⟩ => show win0_5.index t (0 : Fin 2) * 1 + 1 * (y 0).val = (y 0).val; omega
  | ⟨1, _⟩ => show win0_5.index t (1 : Fin 2) * 128 + 1 * (y 1).val = (y 1).val; omega

/-! ## What a tile writes back -/

/-- WHAT TILE `t` WRITES BACK is block `t` of the layer's output array. -/
theorem flushed_eq (c : Dev nD) (t : Fin cfg0.N) :
    (dats m 0 c).flushed 6 t = ((cfg0.win 6).blk t).view.read (Elt Ideal) (result m c) := by
  rw [Cert.KernelIdeal.Value.flushed6]
  unfold out0_6
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  have hN : cfg0.N = 20 := N_0
  have hr : t.val * 5000 + p.val < 100000 := by have := t.isLt; have := p.isLt; omega
  obtain ⟨-, -, -, -, -, -, -, -, -, -, -, -, e12, e13⟩ := idx_facts t
  have hemb : ((cfg0.win 6).blk t).view.emb (ix2 p q) = ix2 (⟨t.val * 5000 + p.val, hr⟩ : Fin 100000) q :=
    funext fun a => Fin.ext (by
      match a with
      | ⟨0, _⟩ => show win0_6.index t (0 : Fin 2) * 5000 + 1 * p.val = t.val * 5000 + p.val; omega
      | ⟨1, _⟩ => show win0_6.index t (1 : Fin 2) * 128 + 1 * q.val = q.val; omega)
  show k0_pay1 (iblk m c 0 t) (iblk m c 1 t) (iblk m c 2 t) (iblk m c 3 t) (iblk m c 4 t) (iblk m c 5 t) (ix2 p q)
    = result m c (((cfg0.win 6).blk t).view.emb (ix2 p q))
  rw [hemb, pay_ix2, w1_tile, b1_tile, w2_tile, b2_tile]
  unfold result
  rw [layerOut_ix2]
  unfold nodeOut
  congr 1
  funext k
  rw [x_tile m c t p k ⟨t.val * 5000 + p.val, hr⟩ rfl, agg_tile m c t p k ⟨t.val * 5000 + p.val, hr⟩ rfl]

/-! ## The tiles cover the result -/

/-- A node's row is in tile `t`'s block iff it lies in that tile's 5000 rows. -/
theorem mem_tile (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v20).slice (win0_6.rect t)).set ↔ _
  rw [View.set_slice_whole, Rect.mem_set_unit]
  exact Iff.rfl

/-- Every element of the result lies in the tile of its node: tile `r / 5000` for node `r`. -/
theorem tiles_cover (i : S100000x128.Idx) :
    ∃ t : Fin cfg0.N, (cfg0.win 6).flush t = true ∧ i ∈ ((cfg0.win 6).blk t).view.set := by
  have hN : cfg0.N = 20 := N_0
  have hi0 : (i 0).val < 100000 := (i 0).isLt
  have hi1 : (i 1).val < 128 := (i 1).isLt
  have ht : (i 0).val / 5000 < cfg0.N := by omega
  obtain ⟨-, -, -, -, -, -, -, -, -, -, -, -, e12, e13⟩ := idx_facts ⟨(i 0).val / 5000, ht⟩
  refine ⟨⟨(i 0).val / 5000, ht⟩, flush0_6 _, ?_⟩
  rw [mem_tile]
  intro a
  match a with
  | ⟨0, _⟩ =>
    show win0_6.index ⟨(i 0).val / 5000, ht⟩ (0 : Fin 2) * 5000 ≤ (i 0).val ∧ (i 0).val < win0_6.index ⟨(i 0).val / 5000, ht⟩ (0 : Fin 2) * 5000 + 5000
    rw [e12]; show (i 0).val / 5000 * 5000 ≤ (i 0).val ∧ (i 0).val < (i 0).val / 5000 * 5000 + 5000; omega
  | ⟨1, _⟩ =>
    show win0_6.index ⟨(i 0).val / 5000, ht⟩ (1 : Fin 2) * 128 ≤ (i 1).val ∧ (i 1).val < win0_6.index ⟨(i 0).val / 5000, ht⟩ (1 : Fin 2) * 128 + 128
    rw [e13]; omega

/-! ## The array after the run, and the run -/

/-- THE RESULT ARRAY after the run is the layer's output array of the arrays the call was given. -/
theorem final (c : Dev nD) : (dats m 0 c).arrAt 6 cfg0.N = result m c :=
  (dats m 0 c).arrAt_eq_of_cover 6 (result m c) (fun t _ => flushed_eq m c t) tiles_cover

/-- The kernel program's run, read: the result at the layer's output array, the arguments unchanged. -/
theorem run : θ_run defs (onTc (τ := τ) (main (F := Ideal))) ⟨m, fun _ => 0, ρ⟩ fun r => ∀ c : Dev nD,
      r.2.mem ((c : Thread nD τ).loc main_v20) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩)
    (Cert.KernelIdeal.Value.run_blocks m ρ)

end Cert.KernelIdeal.ArrValue

end
-- ==== Proof.RefRow.lean ====
/-
  The reference's result, read at one element.

  The reference forms `1 · x + agg` for all nodes at once, multiplies by the transposed first weight matrix, adds the
  bias broadcast over the nodes, clamps at zero, and repeats with the second matrix and bias. Element (r, q) of each
  product is a sum over the 128 input features of row r of the left operand, so the result at (r, q) is the two-layer
  perceptron `Gin.mlp` of row r of `x + agg`: the multiplication by the constant one is the identity on every
  extended real. The aggregate `agg` (the gather of the source rows scattered-and-added at the destinations) is kept
  as the reference's own stage `val_main_v13`.
-/
import proofs.«152636_j7000796693167_1_alg».proof.Proof.Gen.ReferenceIdeal.Read
import proofs.«152636_j7000796693167_1_alg».proof.Proof.Mlp
import Idealize.ShloMosaic.Lib.IdealHost

noncomputable section

open scoped BigOperators

namespace Cert.ReferenceIdeal.RowValue

open Cert.ReferenceIdeal Cert.ReferenceIdeal.Gen Cert.ReferenceIdeal.Read Idealize.ShloMosaic Idealize.ShloMosaic.ValueIdx Cert.Gin

variable (x0 : (⟨S100000x128, .f32⟩ : BufTy).Contents (Elt Ideal)) (x1 : (⟨S2x625000, .i32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))

/-- The perceptron's input at node `r`, feature `j`: the node's own feature (times the constant one) plus the aggregate's. -/
theorem input_ix2 (r : Fin 100000) (j : Fin 128) :
    val_main_v16 (F := Ideal) x0 x1 (ix2 r j) = x0 (ix2 r j) + val_main_v13 (F := Ideal) x0 x1 (ix2 r j) := by
  rw [val_main_v16_apply, val_main_v15_apply, val_main_v14_apply, val_main_cst_1_apply]
  show Ideal.ofBits .f32 0x3F800000#32 * x0 (ix2 r j) + _ = _
  rw [Ideal.ofBits_one_f32, one_mul]

/-- The first layer at node `r`, hidden feature `k`. -/
theorem hidden_ix2 (r : Fin 100000) (k : Fin 128) :
    val_main_v22 (F := Ideal) x0 x1 x2 x3 (ix2 r k)
      = dense (fun j => val_main_v16 (F := Ideal) x0 x1 (ix2 r j)) (val_main_v17 (F := Ideal) x2) (val_main_v19 (F := Ideal) x3) k := by
  rw [val_main_v22_apply, val_main_v21_apply, val_main_v18_apply, val_main_v20_apply, val_main_call0_v0_apply, val_main_call0_cst_apply]
  have hl : ∀ j : Fin 128, lidx_main_v18 (ix2 r k) j = ix2 r j := fun j => funext fun a => by
    match a with | ⟨0, _⟩ => rfl | ⟨1, _⟩ => rfl
  have hr : ∀ j : Fin 128, ridx_main_v18 (ix2 r k) j = ix2 j k := fun j => funext fun a => by
    match a with | ⟨0, _⟩ => rfl | ⟨1, _⟩ => rfl
  have hb : idx_main_v20 (ix2 r k) = ix2 (0 : Fin 1) k := funext fun a => by
    match a with | ⟨0, _⟩ => rfl | ⟨1, _⟩ => rfl
  simp only [hl, hr, hb]
  show max (_ + _) (Ideal.ofBits .f32 0x00000000#32) = _
  rw [Ideal.ofBits_zero_f32]
  rfl

/-- The second layer at node `r`, output feature `q`. -/
theorem result_ix2 (r : Fin 100000) (q : Fin 128) :
    val_main_v28 (F := Ideal) x0 x1 x2 x3 x4 x5 (ix2 r q)
      = dense (fun k => val_main_v22 (F := Ideal) x0 x1 x2 x3 (ix2 r k)) (val_main_v23 (F := Ideal) x4) (val_main_v25 (F := Ideal) x5) q := by
  rw [val_main_v28_apply, val_main_v27_apply, val_main_v24_apply, val_main_v26_apply, val_main_call1_v0_apply, val_main_call1_cst_apply]
  have hl : ∀ k : Fin 128, lidx_main_v24 (ix2 r q) k = ix2 r k := fun k => funext fun a => by
    match a with | ⟨0, _⟩ => rfl | ⟨1, _⟩ => rfl
  have hr : ∀ k : Fin 128, ridx_main_v24 (ix2 r q) k = ix2 k q := fun k => funext fun a => by
    match a with | ⟨0, _⟩ => rfl | ⟨1, _⟩ => rfl
  have hb : idx_main_v26 (ix2 r q) = ix2 (0 : Fin 1) q := funext fun a => by
    match a with | ⟨0, _⟩ => rfl | ⟨1, _⟩ => rfl
  simp only [hl, hr, hb]
  show max (_ + _) (Ideal.ofBits .f32 0x00000000#32) = _
  rw [Ideal.ofBits_zero_f32]
  rfl

/-- THE REFERENCE'S RESULT is the layer's output array of the node features, the reference's aggregate, the two
    transposed weight matrices and the two bias rows. -/
theorem result_eq :
    val_main_v28 (F := Ideal) x0 x1 x2 x3 x4 x5
      = layerOut x0 (val_main_v13 (F := Ideal) x0 x1) (val_main_v17 (F := Ideal) x2) (val_main_v19 (F := Ideal) x3)
          (val_main_v23 (F := Ideal) x4) (val_main_v25 (F := Ideal) x5) := by
  funext i
  obtain ⟨r, q, rfl⟩ : ∃ (r : Fin 100000) (q : Fin 128), i = ix2 r q := ⟨i 0, i 1, eq_ix2 i⟩
  rw [layerOut_ix2, result_ix2]
  unfold nodeOut mlp
  congr 1
  funext k
  rw [hidden_ix2]
  congr 1
  funext j
  exact input_ix2 x0 x1 r j

end Cert.ReferenceIdeal.RowValue

end
-- ==== Proof.HostSide.lean ====
/-
  The arrays the kernel call is given are the reference's own intermediate arrays.

  Before the call the kernel program computes on the host, from the same arguments and with the same operations as the
  reference: the aggregate (gather of the source nodes' rows, scattered and added at the destination nodes), the two
  transposed weight matrices (the narrowing to the product's operand format is the identity over the extended reals),
  and the two biases laid out as a row (a reshape of 128 numbers to 1 × 128, where the reference broadcasts them to
  1 × 128: the same row). Hence the layer's output array of the kernel's six arrays is the reference's result.
-/
import proofs.«152636_j7000796693167_1_alg».proof.Proof.KernelArray
import proofs.«152636_j7000796693167_1_alg».proof.Proof.RefRow
import Idealize.ShloMosaic.Lib.StableHlo.Run
import Idealize.ShloMosaic.Lib.Pipeline.Value

noncomputable section

namespace Cert.Proof.HostSide

open Cert.KernelIdeal Cert.KernelIdeal.Gen Cert.KernelIdeal.ArrValue Idealize.ShloMosaic Idealize.ShloMosaic.TcCoe Idealize.SL.Sem
open Idealize.ShloMosaic.ValueIdx Cert.Gin Idealize.ShloMosaic.StableHlo

variable (m : (ℓ : Loc nD τ sig) → Buf (Elt Ideal) ℓ)

/-- The node features reach the call as launched. -/
theorem x_eq (c : Dev nD) : xArr m c = m ((c : Thread nD τ).loc main_arg0) := V_main_arg0 m c

/-- The aggregate the call is given is the reference's aggregate of the same arguments: one term. -/
theorem agg_eq (c : Dev nD) :
    aggArr m c = Cert.ReferenceIdeal.Read.val_main_v13 (F := Ideal) (m ((c : Thread nD τ).loc main_arg0)) (m ((c : Thread nD τ).loc main_arg1)) := by
  show (V m c main_v13 : FVec Ideal S100000x128 .f32) = _
  dsimp only [Gen.V, Gen.hostOps0]
  after_results
  rfl

/-- The first weight matrix as given to the call: the reference's transpose. -/
theorem w1_eq (c : Dev nD) :
    w1Arr m c = Cert.ReferenceIdeal.Read.val_main_v17 (F := Ideal) (m ((c : Thread nD τ).loc main_arg2)) := by
  show (V m c main_v15 : FVec Ideal S128x128 .bf16) = _
  dsimp only [Gen.V, Gen.hostOps0]
  after_results
  rfl

/-- The second weight matrix as given to the call: the reference's transpose. -/
theorem w2_eq (c : Dev nD) :
    w2Arr m c = Cert.ReferenceIdeal.Read.val_main_v23 (F := Ideal) (m ((c : Thread nD τ).loc main_arg4)) := by
  show (V m c main_v17 : FVec Ideal S128x128 .bf16) = _
  dsimp only [Gen.V, Gen.hostOps0]
  after_results
  rfl

/-- 128 numbers reshaped to one row are the same numbers broadcast to one row. -/
theorem row_of_reshape (b : (⟨S128, .f32⟩ : BufTy).Contents (Elt Ideal)) :
    (shapeCast S1x128 b shapeCasts_S128_S1x128 : FVec Ideal S1x128 .f32) = Cert.ReferenceIdeal.Read.val_main_v19 (F := Ideal) b := by
  funext i
  rw [Cert.ReferenceIdeal.Read.val_main_v19_apply]
  exact shapeCast_apply b shapeCasts_S128_S1x128 i (Cert.ReferenceIdeal.Read.idx_main_v19 i)
    (by rewrite [Shape.rowMajor_val_one, Shape.rowMajor_val_two]; have h0 : (i 0).val < 1 := (i 0).isLt; show (i 1).val = (i 0).val * 128 + (i 1).val; omega)

/-- The first bias row as given to the call: the reference's row. -/
theorem b1_eq (c : Dev nD) :
    b1Arr m c = Cert.ReferenceIdeal.Read.val_main_v19 (F := Ideal) (m ((c : Thread nD τ).loc main_arg3)) := by
  have e : (V m c main_v18 : FVec Ideal S1x128 .f32) = shapeCast S1x128 (m ((c : Thread nD τ).loc main_arg3)) shapeCasts_S128_S1x128 := by
    dsimp only [Gen.V, Gen.hostOps0]
    after_results
    rfl
  show (V m c main_v18 : FVec Ideal S1x128 .f32) = _
  rw [e]
  exact row_of_reshape _

/-- The second bias row as given to the call: the reference's row. -/
theorem b2_eq (c : Dev nD) :
    b2Arr m c = Cert.ReferenceIdeal.Read.val_main_v25 (F := Ideal) (m ((c : Thread nD τ).loc main_arg5)) := by
  have e : (V m c main_v19 : FVec Ideal S1x128 .f32) = shapeCast S1x128 (m ((c : Thread nD τ).loc main_arg5)) shapeCasts_S128_S1x128 := by
    dsimp only [Gen.V, Gen.hostOps0]
    after_results
    rfl
  show (V m c main_v19 : FVec Ideal S1x128 .f32) = _
  rw [e]
  exact row_of_reshape _

/-- THE KERNEL'S RESULT ARRAY IS THE REFERENCE'S, as functions of the six arguments. -/
theorem result_eq (c : Dev nD) :
    result m c = Cert.ReferenceIdeal.Read.val_main_v28 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5)) := by
  rw [Cert.ReferenceIdeal.RowValue.result_eq]
  unfold result
  rw [x_eq, agg_eq, w1_eq, b1_eq, w2_eq, b2_eq]

end Cert.Proof.HostSide

end
-- ==== Proof.lean ====
/-
  One graph-isomorphism layer: the kernel program against its reference, over the extended reals.

  Both programs first form, on the host and by the same operations, the aggregate `agg` of the node features `x`
  (row `src e` of `x` added into row `dst e` for every edge `e`). The layer is then, node by node,
  `relu (relu ((x r + agg r) · W₁ᵀ + b₁) · W₂ᵀ + b₂)`. The reference computes it for all 100000 nodes at once (and
  multiplies `x` by the constant one first, which changes no extended real); the kernel computes it in 20 tiles of
  5000 nodes inside one call, its products into zero accumulators and its operands narrowed for the product, which over
  the extended reals is the identity. Row r of the result depends on row r of `x` and `agg` only, so the tiles, which
  cover the nodes, assemble the same array: no algebraic law beyond `1 · a = a` is used, and finiteness of the inputs
  is never needed.

  The modules: Mlp (the layer on one row), KernelRow (the body's stored block at an element), KernelArray (the tiles
  assembled into the result array, and the kernel program's run), RefRow (the reference's result at an element),
  HostSide (the arrays given to the call are the reference's own stages). The frames of the two kernel programs are the
  generated ones; the reference's is its generated run with the result dropped; the idealization rewrote nothing.
-/
import proofs.«152636_j7000796693167_1_alg».proof.Defs
import proofs.«152636_j7000796693167_1_alg».proof.Proof.Gen.Kernel
import proofs.«152636_j7000796693167_1_alg».proof.Proof.Gen.Kernel.Skeleton
import proofs.«152636_j7000796693167_1_alg».proof.Proof.Gen.Kernel.Launch
import proofs.«152636_j7000796693167_1_alg».proof.Proof.Gen.Kernel.Points
import proofs.«152636_j7000796693167_1_alg».proof.Proof.Gen.Kernel.Frame
import proofs.«152636_j7000796693167_1_alg».proof.Proof.Gen.KernelIdeal
import proofs.«152636_j7000796693167_1_alg».proof.Proof.Gen.KernelIdeal.Skeleton
import proofs.«152636_j7000796693167_1_alg».proof.Proof.Gen.KernelIdeal.Launch
import proofs.«152636_j7000796693167_1_alg».proof.Proof.Gen.KernelIdeal.Points
import proofs.«152636_j7000796693167_1_alg».proof.Proof.Gen.KernelIdeal.Frame
import proofs.«152636_j7000796693167_1_alg».proof.Proof.Gen.ReferenceIdeal
import proofs.«152636_j7000796693167_1_alg».proof.Proof.Gen.Pre_finite_inputs
import proofs.«152636_j7000796693167_1_alg».proof.Proof.Gen.KernelIdeal.Value
import proofs.«152636_j7000796693167_1_alg».proof.Proof.Gen.ReferenceIdeal.Run
import proofs.«152636_j7000796693167_1_alg».proof.Proof.Gen.ReferenceIdeal.Read
import proofs.«152636_j7000796693167_1_alg».proof.Proof.HostSide
import Idealize.ShloMosaic.Adequacy
import Idealize.ShloMosaic.Init

noncomputable section

namespace Cert.Proof

open Idealize.ShloMosaic Idealize.SL.Sem

/-- The kernel program, word level: it runs and leaves its arguments as they were. -/
theorem frame_kernel : Cert.frame_Kernel := fun m ρ _ => Cert.Kernel.Gen.frame m ρ

/-- The same for the kernel program over the extended reals. -/
theorem frame_kernelIdeal : Cert.frame_KernelIdeal := fun m ρ _ => Cert.KernelIdeal.Gen.frame m ρ

/-- The reference runs and leaves its arguments as they were: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree, the kernel program ends with its result array at the layer's output array of its six
    call operands, and the reference at its own composed term: the same function of the arguments. -/
theorem algebraic : Cert.algebraic_KernelIdeal_ReferenceIdeal := by
  intro m ρ m' ρ' _ hagree
  refine ⟨fun c => Cert.KernelIdeal.ArrValue.result m c, Cert.KernelIdeal.ArrValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [a0, a1, a2, a3, a4, a5, Cert.ReferenceIdeal.Read.val_main_v28_eq]
  exact (Cert.Proof.HostSide.result_eq m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
